-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S512x256 : Shape := ⟨2, ![512, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S32768x256 .f32) (main_arg1 : FVec F S512x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S32768x256 : Shape := ⟨2, ![32768, 256]⟩
abbrev S512x256 : Shape := ⟨2, ![512, 256]⟩
abbrev S256x512 : Shape := ⟨2, ![256, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S32768x512 : Shape := ⟨2, ![32768, 512]⟩
abbrev S2048x256 : Shape := ⟨2, ![2048, 256]⟩
abbrev S2048x512 : Shape := ⟨2, ![2048, 512]⟩
abbrev S2048 : Shape := ⟨1, ![2048]⟩
abbrev S2048x1 : Shape := ⟨2, ![2048, 1]⟩

abbrev nBuf : Space → Nat
  | .hbm => 10
  | .vmem => 6
  | .smem => 0
  | _ => 0

abbrev bufTy : (tb : Table) → Fin (tcTables nBuf tb) → BufTy
  | .hbm, ⟨0, _⟩ => ⟨S32768x256, .f32⟩
  | .hbm, ⟨1, _⟩ => ⟨S512x256, .f32⟩
  | .hbm, ⟨2, _⟩ => ⟨S256x512, .f32⟩
  | .hbm, ⟨3, _⟩ => ⟨S256x512, .bf16⟩
  | .hbm, ⟨4, _⟩ => ⟨S512x256, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S1x512, .f32⟩
  | .hbm, ⟨9, _⟩ => ⟨S32768x512, .f32⟩
  | .local _ .vmem, ⟨0, _⟩ => ⟨S2048x256, .f32⟩
  | .local _ .vmem, ⟨1, _⟩ => ⟨S2048x256, .f32⟩
  | .local _ .vmem, ⟨2, _⟩ => ⟨S256x512, .bf16⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S512x256_S256x512_1_0 : S512x256.Transposes [1, 0] S256x512
  bitsLt_bf16_f32 : FTy.bits .bf16 < FTy.bits .f32
  reducesTo_S512x256_S512_d1 : S512x256.ReducesTo [1] S512
  h_S_ : 0 < S_.numel
  bcast_S512_S512x1_0 : S512.BroadcastsInDim S512x1 (![0] : Fin 1 → Fin S512x1.rank)
  transposes_S512x1_S1x512_1_0 : S512x1.Transposes [1, 0] S1x512
  inb_S2048x256_S2048x256_0_0 : ∀ a, (![0, 0] : Fin 2 → Nat) a + S2048x256.size a ≤ S2048x256.size a
  h_S2048x256 : 0 < S2048x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S2048x256_S2048 : S2048x256.Reduces [1] S2048
  shapeCasts_S2048_S2048x1 : S2048.ShapeCasts S2048x1
  broadcasts_S2048x1_S2048x512 : S2048x1.Broadcasts S2048x512
  broadcasts_S1x512_S2048x512 : S1x512.Broadcasts S2048x512
  reduces_S2048x512_S2048 : S2048x512.Reduces [1] S2048
  inb_S2048x512_S2048x512_0_0 : ∀ a, (![0, 0] : Fin 2 → Nat) a + S2048x512.size a ≤ S2048x512.size a
  h_S2048x512 : 0 < S2048x512.numel
  dot_S2048x256_S256x512_S2048x512_1_0_0_1_n_n_wf : DotDims.WF S2048x256 S256x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S32768x256.size a
  hwx0_0 : ∀ i : grid0.Coords, EltTy.bits .f32 = 32 ∨ (Rect.block (s := S32768x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S32768x512.size a
  hwx0_3 : ∀ i : grid0.Coords, EltTy.bits .f32 = 32 ∨ (Rect.block (s := S32768x512) S2048x512.size (cc0_transform_3 i) (hinb0_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x256 : Shape := ⟨2, ![32768, 256]⟩
abbrev S512x256 : Shape := ⟨2, ![512, 256]⟩
abbrev S_ : Shape := ⟨0, ![]⟩
abbrev S32768 : Shape := ⟨1, ![32768]⟩
abbrev S32768x1 : Shape := ⟨2, ![32768, 1]⟩
abbrev S512 : Shape := ⟨1, ![512]⟩
abbrev S1x512 : Shape := ⟨2, ![1, 512]⟩
abbrev S32768x512 : Shape := ⟨2, ![32768, 512]⟩
abbrev S256x512 : Shape := ⟨2, ![256, 512]⟩

abbrev nBuf : Space → Nat
  | .hbm => 39
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S512x256, .f32⟩
  | .hbm, ⟨2, _⟩ => ⟨S32768x256, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S512x256, .f32⟩
  | .hbm, ⟨7, _⟩ => ⟨S_, .f32⟩
  | .hbm, ⟨8, _⟩ => ⟨S512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S256x512, .f32⟩
  | .hbm, ⟨14, _⟩ => ⟨S32768x512, .f32⟩
  | .hbm, ⟨15, _⟩ => ⟨S_, .f32⟩
  | .hbm, ⟨16, _⟩ => ⟨S32768x512, .f32⟩
  | .hbm, ⟨17, _⟩ => ⟨S32768x512, .f32⟩
  | .hbm, ⟨18, _⟩ => ⟨S32768x512, .f32⟩
  | .hbm, ⟨19, _⟩ => ⟨S_, .f32⟩
  | .hbm, ⟨20, _⟩ => ⟨S32768x512, .f32⟩
  | .hbm, ⟨21, _⟩ => ⟨S32768x512, .f32⟩
  | .hbm, ⟨22, _⟩ => ⟨S_, .f32⟩
  | .hbm, ⟨23, _⟩ => ⟨S32768x512, .f32⟩
  | .hbm, ⟨24, _⟩ => ⟨S32768x512, .f32⟩
  | .hbm, ⟨25, _⟩ => ⟨S_, .f32⟩
  | .hbm, ⟨26, _⟩ => ⟨S32768x512, .f32⟩
  | .hbm, ⟨27, _⟩ => ⟨S32768x512, .f32⟩
  | .hbm, ⟨28, _⟩ => ⟨S_, .f32⟩
  | .hbm, ⟨29, _⟩ => ⟨S32768x512, .f32⟩
  | .hbm, ⟨30, _⟩ => ⟨S32768x512, .f32⟩
  | .hbm, ⟨31, _⟩ => ⟨S_, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768, .f32⟩
  | .hbm, ⟨36, _⟩ => ⟨S32768x1, .f32⟩
  | .hbm, ⟨37, _⟩ => ⟨S32768x512, .f32⟩
  | .hbm, ⟨38, _⟩ => ⟨S32768x512, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_v22 : Ref sig .tc := ⟨.hbm, 32, rfl⟩
abbrev main_v23 : Ref sig .tc := ⟨.hbm, 33, rfl⟩
abbrev main_cst_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  reducesTo_S32768x256_S32768_d1 : S32768x256.ReducesTo [1] S32768
  h_S_ : 0 < S_.numel
  bcast_S32768_S32768x1_0 : S32768.BroadcastsInDim S32768x1 (![0] : Fin 1 → Fin S32768x1.rank)
  reducesTo_S512x256_S512_d1 : S512x256.ReducesTo [1] S512
  bcast_S512_S1x512_1 : S512.BroadcastsInDim S1x512 (![1] : Fin 1 → Fin S1x512.rank)
  bcast_S32768x1_S32768x512_0_1 : S32768x1.BroadcastsInDim S32768x512 (![0, 1] : Fin 2 → Fin S32768x512.rank)
  bcast_S1x512_S32768x512_0_1 : S1x512.BroadcastsInDim S32768x512 (![0, 1] : Fin 2 → Fin S32768x512.rank)
  transposes_S512x256_S256x512_1_0 : S512x256.Transposes [1, 0] S256x512
  bcast_S_S32768x512 : S_.BroadcastsInDim S32768x512 (![] : Fin 0 → Fin S32768x512.rank)
  reducesTo_S32768x512_S32768_d1 : S32768x512.ReducesTo [1] S32768
  dot_S32768x256_S256x512_S32768x512_1_0_0_1_n_n_wf : DotDims.WF S32768x256 S256x512 S32768x512 [1] [0] [0] [1] [] []

variable [Facts₀]

def dot_S32768x256_S256x512_S32768x512_1_0_0_1_n_n : DotDims S32768x256 S256x512 S32768x512 where
  lhsContracting := [1]
  rhsContracting := [0]
  lhsNonContracting := [0]
  rhsNonContracting := [1]
  lhsBatch := []
  rhsBatch := []
  wf := dot_S32768x256_S256x512_S32768x512_1_0_0_1_n_n_wf

class Facts : Prop extends Facts₀ where

variable [Facts]
-- ==== Proof.SoftAssign.lean ====
/-
  The function both programs compute, index by index, on the extended reals.

  For points x : [32768, 256] and centres c : [512, 256], write
    |x_n|^2   = sum over d of x[n,d] * x[n,d],
    |c_k|^2   = sum over d of c[k,d] * c[k,d],
    <x_n,c_k> = sum over d of x[n,d] * c[k,d].
  The squared distance from point n to centre k is taken in its expanded form
    dist n k = (|x_n|^2 + |c_k|^2) - 2 * <x_n, c_k>,
  clipped below at 0; the Student-t weight (one degree of freedom) is
    w n k = 1 / (1 + max (dist n k) 0),
  and the result is each row of weights divided by that row's sum:
    assign (n, k) = w n k / (sum over k' of w n k').
  The grouping of the additions and the order of the factors are exactly those of the two programs, so no
  law that could fail at an infinity is used anywhere: this module never needs an input to be finite.

  The constants 0, 1 and 2 stay the f32 words the programs print; only 0 (a neutral summand) and 1 (a
  neutral divisor and exponent, on the reference's side only) are ever evaluated.
-/
import Idealize.ShloMosaic.PureOps.Ideal
import Idealize.ShloMosaic.PureOps.Ideal.Laws
import Idealize.ShloMosaic.Lib.ValueIdx

noncomputable section

namespace Cert.SoftAssign

open Idealize.ShloMosaic Idealize.ShloMosaic.ValueIdx

/-- The points' shape, the centres' shape and the result's shape. -/
abbrev Pts : Shape := ⟨2, ![32768, 256]⟩
abbrev Ctr : Shape := ⟨2, ![512, 256]⟩
abbrev Out : Shape := ⟨2, ![32768, 512]⟩

/-- The f32 words of 0, 1 and 2, read on the extended reals. -/
abbrev zeroW : EReal := Ideal.ofBits .f32 0x00000000#32
abbrev oneW : EReal := Ideal.ofBits .f32 0x3F800000#32
abbrev twoW : EReal := Ideal.ofBits .f32 0x40000000#32

/-- |x_n|^2: the sum of the squares of point n's coordinates. -/
def sqNormPt (x : Pts.Idx → EReal) (n : Fin 32768) : EReal := ∑ d : Fin 256, x (ix2 n d) * x (ix2 n d)

/-- |c_k|^2: the sum of the squares of centre k's coordinates. -/
def sqNormCtr (c : Ctr.Idx → EReal) (k : Fin 512) : EReal := ∑ d : Fin 256, c (ix2 k d) * c (ix2 k d)

/-- <x_n, c_k>: the inner product of point n and centre k. -/
def ptDot (x : Pts.Idx → EReal) (c : Ctr.Idx → EReal) (n : Fin 32768) (k : Fin 512) : EReal :=
  ∑ d : Fin 256, x (ix2 n d) * c (ix2 k d)

/-- The squared distance in expanded form, (|x_n|^2 + |c_k|^2) - 2 <x_n, c_k>. -/
def sqDist (x : Pts.Idx → EReal) (c : Ctr.Idx → EReal) (n : Fin 32768) (k : Fin 512) : EReal :=
  (sqNormPt x n + sqNormCtr c k) - twoW * ptDot x c n k

/-- The Student-t weight of centre k for point n: 1 / (1 + max (dist n k) 0). -/
def weight (x : Pts.Idx → EReal) (c : Ctr.Idx → EReal) (n : Fin 32768) (k : Fin 512) : EReal :=
  Ideal.div oneW (oneW + max (sqDist x c n k) zeroW)

/-- The row-normalised weights: w n k over the sum of row n's weights. -/
def assign (x : Pts.Idx → EReal) (c : Ctr.Idx → EReal) : Out.Idx → EReal :=
  fun i => Ideal.div (weight x c (i 0) (i 1)) (∑ k' : Fin 512, weight x c (i 0) k')

/-- The word 0x3F800000 is the real number 1. -/
theorem oneW_eq : oneW = ((1 : ℝ) : EReal) := by
  simp [Ideal.ofBits, Ideal.ieee, -EReal.coe_mul]
  norm_num

/-- Dividing by the word of 1 changes nothing, at the infinities too: x / 1 = x * (1/1) = x. -/
theorem div_oneW (x : EReal) : Ideal.div x oneW = x := by
  rw [oneW_eq, Ideal.div_coe (by norm_num : (1 : ℝ) ≠ 0)]
  simp

/-- Raising to the word of 1 changes nothing: the infinities are fixed by a positive exponent, and on a real
    number it is Real.rpow_one. -/
theorem pow_oneW (x : EReal) : Ideal.pow x oneW = x := by
  rw [oneW_eq]
  induction x using EReal.rec with
  | bot => rfl
  | top => simp [Ideal.pow_top]
  | coe r => rw [Ideal.pow_coe_coe]; exact congrArg _ (Real.rpow_one r)

/-- The word of 0 is a neutral summand on the left. -/
theorem zeroW_add (x : EReal) : zeroW + x = x := by
  rw [show zeroW = 0 from Ideal.ofBits_zero_f32, zero_add]

end Cert.SoftAssign

end
-- ==== Proof.LibKeepdimsColumn.lean ====
/-
  A sum over the last axis kept as a column (jnp.sum(x, axis=1, keepdims=True)), read at an index.

  A lane sum of an [a, b] array along its second axis leaves an [a] vector; keepdims casts it to an [a, 1] column,
  which is then broadcast over b columns, or (on the host) transposed to a [1, a] row. Each of these re-layings reads its
  operand at the evident index, for any extents a and b:
    the lane sum at row p is the sum over the row,
    the [a] vector cast to [a, 1], at (i, u), is the vector at i,
    the [a, 1] column broadcast to [a, b], at (p, c), is the column at row p,
    the [a, 1] column transposed to [1, a], at (u, i), is the column at row i.
-/
import Idealize.ShloMosaic.Lib.Pipeline.Value
import Idealize.ShloMosaic.Lib.ValueIdx
import Idealize.ShloMosaic.PureOps.Ideal.Laws

noncomputable section

namespace Idealize.ShloMosaic.KeepdimsColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, 1]` column transposed to a `[1, a]` row reads, at `(u, i)`, the column at row `i`. -/
theorem transpose_a1_1a_apply {a : ℕ} (x : (⟨2, ![a, 1]⟩ : Shape).Idx → α)
    (h : (⟨2, ![a, 1]⟩ : Shape).Transposes [1, 0] ⟨2, ![1, a]⟩) (u : Fin 1) (i : Fin a) :
    transpose ⟨2, ![1, a]⟩ [1, 0] x h (ix2 u i) = x (ix2 i u) :=
  transpose_apply _ x h _ _ fun c => match c with | ⟨0, _⟩ => rfl | ⟨1, _⟩ => rfl

/-- On the extended reals a lane sum of an `[a, b]` array along its second axis, from the neutral accumulator, reads at
    row `p` as the sum over `d` of the array at `(p, d)`. -/
theorem laneSum_ab_apply {a b : ℕ} {φ : FTy} (v : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ v acc h hφ hacc (ix1 p) = ∑ d : Fin b, v (ix2 p d) := by
  rw [Ideal.multiReduction_add_single]
  refine Finset.sum_congr rfl fun d _ => congrArg v (funext fun c => Fin.ext ?_)
  match c with
  | ⟨0, _⟩ => rfl
  | ⟨1, _⟩ => rfl

end Idealize.ShloMosaic.KeepdimsColumn

end
-- ==== Proof.KernelBlock.lean ====
/-
  What the kernel body stores at one grid point, index by index, from its three loaded blocks.

  The body loads a [2048, 256] block xb of points, the whole [256, 512] transposed centres cb and the [1, 512] row nb of
  the centres' squared norms. It forms, at (p, j),
    dist = ((sum over d of xb[p,d]^2) + nb[0,j]) - 2 * (sum over d of xb[p,d] * cb[d,j]),
    w    = 1 / (1 + max dist 0),
  and stores w divided by the sum of w over row p. The narrowing of the points to bf16 before the product is the identity
  on the extended reals; the product accumulates into zero, so it is the bare sum; the row sums are kept as columns and
  broadcast back over the 512 columns.
-/
import proofs.«413030_j26139170963599_3_alg».proof.Proof.Gen.KernelIdeal.Skeleton
import proofs.«413030_j26139170963599_3_alg».proof.Proof.SoftAssign
import proofs.«413030_j26139170963599_3_alg».proof.Proof.LibKeepdimsColumn
import Idealize.ShloMosaic.Lib.ValueLayout

noncomputable section

namespace Cert.KernelIdeal.BlockValue

open Cert.KernelIdeal Cert.KernelIdeal.Gen Cert.SoftAssign
open Idealize.ShloMosaic Idealize.ShloMosaic.ValueIdx Idealize.ShloMosaic.KeepdimsColumn

/-! ## The block product at an index -/

theorem lhs_blockDot_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide), dif_pos (show (0 : Fin S2048x256.rank) ∈ dot_S2048x256_S256x512_S2048x512_1_0_0_1_n_n.lhsNonContracting by decide)]
  rfl
theorem lhs_blockDot_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
theorem rhs_blockDot_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
theorem rhs_blockDot_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide), dif_pos (show (1 : Fin S256x512.rank) ∈ dot_S2048x256_S256x512_S2048x512_1_0_0_1_n_n.rhsNonContracting by decide)]
  rfl

/-- The [2048, 256] by [256, 512] product into a zero accumulator, at (p, j): the sum over d of a[p,d] * b[d,j]. -/
theorem blockDot_apply (a : FVec Ideal S2048x256 .bf16) (b : FVec Ideal S256x512 .bf16) (p : Fin 2048) (j : Fin 512) :
    matmul dot_S2048x256_S256x512_S2048x512_1_0_0_1_n_n none a b (constant (F := Ideal) S2048x512 .f32 0x00000000#32) (ix2 p j)
      = ∑ d : Fin 256, a (ix2 p d) * b (ix2 d j) := by
  simp only [matmul]
  rw [Ideal.matmul_constant_zero_apply, ← Equiv.sum_comp (ValueIdx.contrEquiv1 dot_S2048x256_S256x512_S2048x512_1_0_0_1_n_n 256 rfl rfl).symm]
  refine Finset.sum_congr rfl fun k _ => ?_
  have hk := ValueIdx.contrEquiv1_symm_val dot_S2048x256_S256x512_S2048x512_1_0_0_1_n_n 256 rfl rfl k
  have el : dot_S2048x256_S256x512_S2048x512_1_0_0_1_n_n.lhsIdx (ix2 p j) ((ValueIdx.contrEquiv1 dot_S2048x256_S256x512_S2048x512_1_0_0_1_n_n 256 rfl rfl).symm k) = ix2 p k := funext fun a => Fin.ext (by
    match a with
    | ⟨0, _⟩ => exact lhs_blockDot_0 _ _
    | ⟨1, _⟩ => exact (lhs_blockDot_1 _ _).trans hk)
  have er : dot_S2048x256_S256x512_S2048x512_1_0_0_1_n_n.rhsIdx (ix2 p j) ((ValueIdx.contrEquiv1 dot_S2048x256_S256x512_S2048x512_1_0_0_1_n_n 256 rfl rfl).symm k) = ix2 k j := funext fun a => Fin.ext (by
    match a with
    | ⟨0, _⟩ => exact (rhs_blockDot_0 _ _).trans hk
    | ⟨1, _⟩ => exact rhs_blockDot_1 _ _)
  rw [el, er]

/-! ## The body's weights and its stored value -/

/-- The weight at (p, j) of the body's blocks: 1 / (1 + max (((sum of xb[p,d]^2) + nb[0,j]) - 2 * (sum of xb[p,d] * cb[d,j])) 0). -/
def blkWeight (xb : FVec Ideal S2048x256 .f32) (cb : FVec Ideal S256x512 .bf16) (nb : FVec Ideal S1x512 .f32)
    (p : Fin 2048) (j : Fin 512) : EReal :=
  Ideal.div oneW (oneW + max (((∑ d : Fin 256, xb (ix2 p d) * xb (ix2 p d)) + nb (ix2 (0 : Fin 1) j))
    - twoW * ∑ d : Fin 256, xb (ix2 p d) * cb (ix2 d j)) zeroW)

/-- The body's [2048, 512] block of weights, as the body spells it: the value it both sums along the rows and divides. -/
def weightsBlk (xb : FVec Ideal S2048x256 .f32) (cb : FVec Ideal S256x512 .bf16) (nb : FVec Ideal S1x512 .f32) :
    FVec Ideal S2048x512 .f32 :=
  divf (broadcast S2048x512 (Scalar.ofBits (F := Ideal) .f32 0x3F800000#32))
    (addf (broadcast S2048x512 (Scalar.ofBits (F := Ideal) .f32 0x3F800000#32))
      (maximumf
        (subf
          (addf
            (broadcastTo S2048x512 (shapeCast S2048x1 (multiReduction .add [1] S2048 (mulf xb xb) 0x00000000#32 reduces_S2048x256_S2048 (.inl rfl) rfl) shapeCasts_S2048_S2048x1) broadcasts_S2048x1_S2048x512)
            (broadcastTo S2048x512 (shapeCast S1x512 nb shapeCasts_S1x512_S1x512) broadcasts_S1x512_S2048x512))
          (mulf (broadcast S2048x512 (Scalar.ofBits (F := Ideal) .f32 0x40000000#32))
            (matmul dot_S2048x256_S256x512_S2048x512_1_0_0_1_n_n none (truncf .bf16 xb bitsLt_bf16_f32) (shapeCast S256x512 cb shapeCasts_S256x512_S256x512)
              (constant (F := Ideal) S2048x512 .f32 0x00000000#32))))
        (broadcast S2048x512 (Scalar.ofBits (F := Ideal) .f32 0x00000000#32))))

/-- The stored value is the weights block divided by its row sums, kept as a column and broadcast back. -/
theorem pay_eq (xb : FVec Ideal S2048x256 .f32) (cb : FVec Ideal S256x512 .bf16) (nb : FVec Ideal S1x512 .f32) :
    k0_pay1 (F := Ideal) xb cb nb
      = divf (weightsBlk xb cb nb)
          (broadcastTo S2048x512 (shapeCast S2048x1 (multiReduction .add [1] S2048 (weightsBlk xb cb nb) 0x00000000#32 reduces_S2048x512_S2048 (.inl rfl) rfl) shapeCasts_S2048_S2048x1) broadcasts_S2048x1_S2048x512) := rfl

/-- The weights block at (p, j) is `blkWeight` there. -/
theorem weightsBlk_apply (xb : FVec Ideal S2048x256 .f32) (cb : FVec Ideal S256x512 .bf16) (nb : FVec Ideal S1x512 .f32)
    (p : Fin 2048) (j : Fin 512) : weightsBlk xb cb nb (ix2 p j) = blkWeight xb cb nb p j := by
  unfold weightsBlk blkWeight
  rw [divf_apply, broadcast_apply, addf_apply, broadcast_apply, maximumf_apply, broadcast_apply, subf_apply, addf_apply, mulf_apply,
    broadcast_apply, broadcastTo_a1_ab_apply, shapeCast_a_a1_apply]
  refine congrArg (Ideal.div oneW) (congrArg (oneW + ·) (congrArg (max · zeroW)
    (congrArg₂ (· - ·) (congrArg₂ (· + ·) ?_ ?_) (congrArg (twoW * ·) ?_))))
  · exact laneSum_ab_apply (mulf xb xb) _ _ _ _ p
  · exact (broadcastTo_1b_ab_apply _ _ p j).trans (congrFun (shapeCast_self nb _) _)
  · refine (blockDot_apply _ _ p j).trans (Finset.sum_congr rfl fun d _ => ?_)
    rw [shapeCast_self]
    rfl

/-- The stored value at (p, j): the weight there over the sum of row p's weights. -/
theorem pay_apply (xb : FVec Ideal S2048x256 .f32) (cb : FVec Ideal S256x512 .bf16) (nb : FVec Ideal S1x512 .f32)
    (p : Fin 2048) (j : Fin 512) :
    k0_pay1 (F := Ideal) xb cb nb (ix2 p j) = Ideal.div (blkWeight xb cb nb p j) (∑ j' : Fin 512, blkWeight xb cb nb p j') := by
  rw [pay_eq, divf_apply, broadcastTo_a1_ab_apply, shapeCast_a_a1_apply]
  refine congrArg₂ Ideal.div (weightsBlk_apply xb cb nb p j) ?_
  exact (laneSum_ab_apply (weightsBlk xb cb nb) _ _ _ _ p).trans (Finset.sum_congr rfl fun j' _ => weightsBlk_apply xb cb nb p j')

/-! ## The stored value is the soft assignment of the rows the blocks hold -/

/-- If row p of the points block is row n of the points X, the centres block is the transpose of the centres C, and the
    norms row holds 0 + |c_j|^2, then the weight at (p, j) is the weight of centre j for point n. -/
theorem blkWeight_eq (X : Pts.Idx → EReal) (C : Ctr.Idx → EReal)
    (xb : FVec Ideal S2048x256 .f32) (cb : FVec Ideal S256x512 .bf16) (nb : FVec Ideal S1x512 .f32)
    (p : Fin 2048) (n : Fin 32768)
    (hx : ∀ d : Fin 256, xb (ix2 p d) = X (ix2 n d))
    (hc : ∀ (d : Fin 256) (j : Fin 512), cb (ix2 d j) = C (ix2 j d))
    (hn : ∀ j : Fin 512, nb (ix2 (0 : Fin 1) j) = zeroW + sqNormCtr C j) (j : Fin 512) :
    blkWeight xb cb nb p j = weight X C n j := by
  unfold blkWeight weight sqDist sqNormPt ptDot
  rw [hn j, zeroW_add]
  simp only [hx, hc]

/-- So what the body stores at (p, j) is the soft assignment of point n to centre j. -/
theorem pay_eq_assign (X : Pts.Idx → EReal) (C : Ctr.Idx → EReal)
    (xb : FVec Ideal S2048x256 .f32) (cb : FVec Ideal S256x512 .bf16) (nb : FVec Ideal S1x512 .f32)
    (p : Fin 2048) (n : Fin 32768)
    (hx : ∀ d : Fin 256, xb (ix2 p d) = X (ix2 n d))
    (hc : ∀ (d : Fin 256) (j : Fin 512), cb (ix2 d j) = C (ix2 j d))
    (hn : ∀ j : Fin 512, nb (ix2 (0 : Fin 1) j) = zeroW + sqNormCtr C j) (j : Fin 512) :
    k0_pay1 (F := Ideal) xb cb nb (ix2 p j) = assign X C (ix2 n j) := by
  rw [pay_apply]
  show _ = Ideal.div (weight X C n j) (∑ k' : Fin 512, weight X C n k')
  rw [blkWeight_eq X C xb cb nb p n hx hc hn j]
  exact congrArg (Ideal.div _) (Finset.sum_congr rfl fun j' _ => blkWeight_eq X C xb cb nb p n hx hc hn j')

end Cert.KernelIdeal.BlockValue

end
-- ==== Proof.KernelArray.lean ====
/-
  The kernel's result array after the run is `SoftAssign.assign` of its two arguments.

  Before the region the host writes two arrays from the centres c: their transpose (narrowed to bf16, the identity on
  the extended reals), whose (d, j) entry is c[j,d], and the [1, 512] row of squared norms, whose (0, j) entry is
  0 + |c_j|^2. The grid has 16 points; point t stages rows 2048 t .. 2048 t + 2047 of the points, the whole of the two
  host arrays, and writes back rows 2048 t .. 2048 t + 2047 of the result. So row p of point t's block is row
  2048 t + p of the points, what the point writes back is that block of `assign`, and since row r lies in the block of
  point r / 2048 the sixteen blocks cover the result: the array ends holding `assign` everywhere.
-/
import proofs.«413030_j26139170963599_3_alg».proof.Proof.Gen.KernelIdeal.Value
import proofs.«413030_j26139170963599_3_alg».proof.Proof.KernelBlock
import Idealize.ShloMosaic.Lib.StableHlo.Run
import Idealize.ShloMosaic.Lib.ValueLayout

noncomputable section

namespace Cert.KernelIdeal.ArrayValue

open Cert.KernelIdeal Cert.KernelIdeal.Gen Cert.KernelIdeal.BlockValue Cert.SoftAssign
open Idealize.ShloMosaic Idealize.ShloMosaic.TcCoe Idealize.SL.Sem
open Idealize.ShloMosaic.ValueIdx Idealize.ShloMosaic.KeepdimsColumn
open Idealize.ShloMosaic.Pipeline (Dat)

variable (m : (ℓ : Loc nD τ sig) → Buf (Elt Ideal) ℓ) (ρ : Dev nD → PrngReg)

/-! ## The two arrays the host writes before the region -/

/-- The host's row sums of a [512, 256] array from the word of 0, at row j: 0 + the sum over the row. -/
theorem hostRowSum_apply (y : FVec Ideal S512x256 .f32) (j : Fin 512) :
    Host.reduceAdd (F := Ideal) y (constant (F := Ideal) S_ .f32 0x00000000#32) reducesTo_S512x256_S512_d1 h_S_ (ix1 j)
      = zeroW + ∑ d : Fin 256, y (ix2 j d) := by
  simp only [Host.reduceAdd, Ideal.hostReduceAdd_def]
  rw [Ideal.hostReduceAdd_single reducesTo_S512x256_S512_d1 (by decide)]
  refine congrArg₂ (· + ·) rfl (Finset.sum_congr rfl fun k _ => ?_)
  exact congrArg y (funext fun a => Fin.ext (by match a with | ⟨0, _⟩ => rfl | ⟨1, _⟩ => rfl))

/-- Window 1's array is the centres transposed. -/
theorem ctrT_arr (c : Dev nD) : (V m c main_v1 : S256x512.Idx → EReal)
    = truncf (F := Ideal) .bf16 (transpose S256x512 [1, 0] ((m ((c : Thread nD τ).loc main_arg1)) : FVec Ideal S512x256 .f32) transposes_S512x256_S256x512_1_0) bitsLt_bf16_f32 := by
  dsimp only [Gen.V, Gen.hostOps0]; after_results

/-- Window 2's array is the centres' squared norms, summed along each row, kept as a column and transposed to a row. -/
theorem nrm_arr (c : Dev nD) : (V m c main_v5 : S1x512.Idx → EReal)
    = transpose S1x512 [1, 0] (broadcastInDim S512x1 ![0] bcast_S512_S512x1_0
        (Host.reduceAdd (F := Ideal) (mulf (m ((c : Thread nD τ).loc main_arg1)) (m ((c : Thread nD τ).loc main_arg1))) (constant (F := Ideal) S_ .f32 0x00000000#32) reducesTo_S512x256_S512_d1 h_S_))
        transposes_S512x1_S1x512_1_0 := by
  dsimp only [Gen.V, Gen.hostOps0]; after_results

/-- The transposed centres at (d, j) are the centres at (j, d). -/
theorem ctrT_apply (c : Dev nD) (d : Fin 256) (j : Fin 512) :
    (V m c main_v1 : S256x512.Idx → EReal) (ix2 d j) = ((m ((c : Thread nD τ).loc main_arg1)) : S512x256.Idx → EReal) (ix2 j d) := by
  rw [ctrT_arr]
  exact transpose_ix2_apply _ _ d j

/-- The norms row at (0, j) is 0 + |c_j|^2. -/
theorem nrm_apply (c : Dev nD) (j : Fin 512) :
    (V m c main_v5 : S1x512.Idx → EReal) (ix2 (0 : Fin 1) j) = zeroW + sqNormCtr (m ((c : Thread nD τ).loc main_arg1)) j := by
  rw [nrm_arr, transpose_a1_1a_apply]
  refine (broadcastInDim_apply ![0] bcast_S512_S512x1_0 _ (ix2 j (0 : Fin 1)) (ix1 j) (fun a => match a with
    | ⟨0, _⟩ => by show j.val = if (512 : Nat) = 1 then 0 else j.val; rw [if_neg (by decide)])).trans ?_
  rw [hostRowSum_apply]
  rfl

/-! ## The windows' blocks -/

theorem hz : (![0, 0] : Fin 2 → Nat) = fun _ => 0 := funext fun a => by fin_cases a <;> rfl

/-- The printed index maps, decided over the sixteen points: the points' window and the result's window are at block
    row t, column block 0; the two host arrays are staged whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point t's block of the points: its (p, d) entry is the points' (2048 t + p, d) entry. -/
theorem ptsBlk_apply (c : Dev nD) (t : Fin cfg0.N) (x : S2048x256.Idx) (k : S32768x256.Idx)
    (hk0 : (k 0).val = 2048 * t.val + (x 0).val) (hk1 : (k 1).val = (x 1).val) :
    (iblk m c 0 t : Vec Ideal S2048x256 .f32) x = ((m ((c : Thread nD τ).loc main_arg0)) : S32768x256.Idx → EReal) k := by
  obtain ⟨e00, e01, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 2048 + 1 * (x 0).val = (k 0).val; rw [e00, hk0]; omega
  | ⟨1, _⟩ => show win0_0.index t 1 * 256 + 1 * (x 1).val = (k 1).val; rw [e01, hk1]; omega

/-- Every point's block of the transposed centres is the whole array. -/
theorem ctrBlk_apply (c : Dev nD) (t : Fin cfg0.N) (x : S256x512.Idx) :
    (iblk m c 1 t : Vec Ideal S256x512 .bf16) x = (V m c main_v1 : S256x512.Idx → EReal) x := by
  obtain ⟨-, -, e10, e11, -⟩ := idx_facts t
  unfold iblk
  rw [View.read_apply]
  show V m c main_v1 _ = V m c main_v1 x
  congr 1
  funext a
  apply Fin.ext
  match a with
  | ⟨0, _⟩ => show win0_1.index t 0 * 256 + 1 * (x 0).val = (x 0).val; rw [e10]; omega
  | ⟨1, _⟩ => show win0_1.index t 1 * 512 + 1 * (x 1).val = (x 1).val; rw [e11]; omega

/-- Every point's block of the norms row is the whole row. -/
theorem nrmBlk_apply (c : Dev nD) (t : Fin cfg0.N) (x : S1x512.Idx) :
    (iblk m c 2 t : Vec Ideal S1x512 .f32) x = (V m c main_v5 : S1x512.Idx → EReal) x := by
  obtain ⟨-, -, -, -, e20, e21, -⟩ := idx_facts t
  unfold iblk
  rw [View.read_apply]
  show V m c main_v5 _ = V m c main_v5 x
  congr 1
  funext a
  apply Fin.ext
  match a with
  | ⟨0, _⟩ => show win0_2.index t 0 * 1 + 1 * (x 0).val = (x 0).val; rw [e20]; omega
  | ⟨1, _⟩ => show win0_2.index t 1 * 512 + 1 * (x 1).val = (x 1).val; rw [e21]; omega

/-! ## What a point writes back, the cover, and the array after the run -/

/-- The stored value at a block index y, against the result index k it is written to: if k is y moved down by the
    block's first row n0 (k = (n0 + y 0, y 1)), and the blocks are as above, the stored value is `assign` at k. -/
theorem pay_at (X : Pts.Idx → EReal) (C : Ctr.Idx → EReal)
    (xb : FVec Ideal S2048x256 .f32) (cb : FVec Ideal S256x512 .bf16) (nb : FVec Ideal S1x512 .f32)
    (y : S2048x512.Idx) (k : S32768x512.Idx)
    (hx : ∀ d : Fin 256, xb (ix2 (y 0) d) = X (ix2 (k 0) d))
    (hc : ∀ (d : Fin 256) (j : Fin 512), cb (ix2 d j) = C (ix2 j d))
    (hn : ∀ j : Fin 512, nb (ix2 (0 : Fin 1) j) = zeroW + sqNormCtr C j)
    (hk1 : (k 1).val = (y 1).val) :
    k0_pay1 (F := Ideal) xb cb nb y = assign X C k := by
  have ey : y = ix2 (y 0) (y 1) := eq_ix2 y
  have ek : k = ix2 (k 0) (y 1) := by
    rw [eq_ix2 k]
    exact congrArg (ix2 (k 0)) (Fin.ext hk1)
  rw [ey, ek]
  exact pay_eq_assign X C xb cb nb (y 0) (k 0) hx hc hn (y 1)

/-- WHAT POINT t WRITES BACK is block t of `assign` of the two arguments. -/
theorem flushed_eq (c : Dev nD) (t : Fin cfg0.N) :
    (dats m 0 c).flushed 3 t = ((cfg0.win 3).blk t).view.read (Elt Ideal) (assign (m ((c : Thread nD τ).loc main_arg0)) (m ((c : Thread nD τ).loc main_arg1))) := by
  rw [Cert.KernelIdeal.Value.flushed3]
  unfold out0_3
  rw [View.canon_unit_zero hz]
  simp only [View.ld_unit_zero (S := S2048x256) hz, View.ld_unit_zero (S := S256x512) hz, View.ld_unit_zero (S := S1x512) hz]
  obtain ⟨-, -, -, -, -, -, e30, e31⟩ := idx_facts t
  funext y
  show k0_pay1 (F := Ideal) (iblk m c 0 t) (iblk m c 1 t) (iblk m c 2 t) y
    = assign (m ((c : Thread nD τ).loc main_arg0)) (m ((c : Thread nD τ).loc main_arg1)) (((cfg0.win 3).blk t).view.emb y)
  have hy0 : (y 0).val < 2048 := (y 0).isLt
  have hy1 : (y 1).val < 512 := (y 1).isLt
  have k0 : ((((cfg0.win 3).blk t).view.emb y) 0).val = 2048 * t.val + (y 0).val := by
    show win0_3.index t 0 * 2048 + 1 * (y 0).val = _; rw [e30]; omega
  have k1 : ((((cfg0.win 3).blk t).view.emb y) 1).val = (y 1).val := by
    show win0_3.index t 1 * 512 + 1 * (y 1).val = _; rw [e31]; omega
  refine pay_at (m ((c : Thread nD τ).loc main_arg0)) (m ((c : Thread nD τ).loc main_arg1)) (iblk m c 0 t) (iblk m c 1 t) (iblk m c 2 t) y (((cfg0.win 3).blk t).view.emb y) ?_ ?_ ?_ k1
  · intro d
    exact ptsBlk_apply m c t (ix2 (y 0) d) (ix2 ((((cfg0.win 3).blk t).view.emb y) 0) d) k0 rfl
  · intro d j
    exact (ctrBlk_apply m c t (ix2 d j)).trans (ctrT_apply m c d j)
  · intro j
    exact (nrmBlk_apply m c t (ix2 (0 : Fin 1) j)).trans (nrm_apply m c j)

/-- An index of the result is in point t's block iff each coordinate is in the block's range on its axis. -/
theorem mem_blk (t : Fin cfg0.N) (i : S32768x512.Idx) :
    i ∈ ((cfg0.win 3).blk t).view.set ↔ ∀ a : Fin 2, win0_3.index t a * S2048x512.size a ≤ (i a).val ∧ (i a).val < win0_3.index t a * S2048x512.size a + S2048x512.size a := by
  show i ∈ ((View.whole main_v6).slice (win0_3.rect t)).set ↔ _
  rw [View.set_slice_whole, Rect.mem_set_unit]
  exact Iff.rfl

/-- Row r of the result lies in the block of point r / 2048: the sixteen blocks cover the array. -/
theorem covered (i : S32768x512.Idx) :
    ∃ t : Fin cfg0.N, (cfg0.win 3).flush t = true ∧ i ∈ ((cfg0.win 3).blk t).view.set := by
  have hN : cfg0.N = 16 := N_0
  have hi0 : (i 0).val < 32768 := (i 0).isLt
  have hi1 : (i 1).val < 512 := (i 1).isLt
  let t : Fin cfg0.N := ⟨(i 0).val / 2048, by rw [hN]; omega⟩
  obtain ⟨-, -, -, -, -, -, e30, e31⟩ := idx_facts t
  have ht : t.val = (i 0).val / 2048 := rfl
  refine ⟨t, flush0_3 t, ?_⟩
  rw [mem_blk]
  intro a
  match a with
  | ⟨0, _⟩ => show win0_3.index t 0 * 2048 ≤ (i 0).val ∧ (i 0).val < win0_3.index t 0 * 2048 + 2048; rw [e30, ht]; omega
  | ⟨1, _⟩ => show win0_3.index t 1 * 512 ≤ (i 1).val ∧ (i 1).val < win0_3.index t 1 * 512 + 512; rw [e31]; omega

/-- THE ARRAY after the run is `assign` of the two arguments. -/
theorem final (c : Dev nD) : (dats m 0 c).arrAt 3 cfg0.N = assign (m ((c : Thread nD τ).loc main_arg0)) (m ((c : Thread nD τ).loc main_arg1)) :=
  (dats m 0 c).arrAt_eq_of_cover 3 _ (fun t _ => flushed_eq m c t) covered

/-- The kernel's run: it terminates with the result array at `assign` of the arguments, the arguments unchanged. -/
theorem run : θ_run defs (onTc (τ := τ) (main (F := Ideal))) ⟨m, fun _ => 0, ρ⟩ fun r => ∀ c : Dev nD,
      r.2.mem ((c : Thread nD τ).loc main_v6) = assign (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.ArrayValue

end
-- ==== Proof.ReferenceAssign.lean ====
/-
  The reference program's result, read one operation at a time, is `SoftAssign.assign` of its two arguments.

  The reference spells the same formula with three extra neutral steps: every sum starts from the word of 0
  (0 + s = s), the clipped distance is divided by the word of 1 before 1 is added (d / 1 = d), and the weight is
  raised to the power 1 (w ^ 1 = w). Its product x @ c^T reads at (n, k) as the sum over d of
  x[n,d] * (c^T)[d,k] = x[n,d] * c[k,d], the inner product.
-/
import proofs.«413030_j26139170963599_3_alg».proof.Proof.Gen.ReferenceIdeal.Read
import proofs.«413030_j26139170963599_3_alg».proof.Proof.SoftAssign

noncomputable section

namespace Cert.ReferenceIdeal.RefValue

open Cert.ReferenceIdeal Cert.ReferenceIdeal.Gen Cert.ReferenceIdeal.Read Cert.SoftAssign
open Idealize.ShloMosaic Idealize.ShloMosaic.ValueIdx

variable (x : (⟨S32768x256, .f32⟩ : BufTy).Contents (Elt Ideal)) (c : (⟨S512x256, .f32⟩ : BufTy).Contents (Elt Ideal))

/-- The row-sum stage at row n: 0 + |x_n|^2. -/
theorem rowNorm_eq (n : Fin 32768) : val_main_v1 (F := Ideal) x (ix1 n) = zeroW + sqNormPt x n := by
  rw [val_main_v1_apply]
  refine congrArg₂ (· + ·) rfl (Finset.sum_congr rfl fun d _ => ?_)
  rw [val_main_v0_apply]
  have e : idx_main_v1 (ix1 n) d = ix2 n d := funext fun a => Fin.ext (by match a with | ⟨0, _⟩ => rfl | ⟨1, _⟩ => rfl)
  rw [e]; rfl

/-- The centres' row-sum stage at centre k: 0 + |c_k|^2. -/
theorem ctrNorm_eq (k : Fin 512) : val_main_v4 (F := Ideal) c (ix1 k) = zeroW + sqNormCtr c k := by
  rw [val_main_v4_apply]
  refine congrArg₂ (· + ·) rfl (Finset.sum_congr rfl fun d _ => ?_)
  rw [val_main_v3_apply]
  have e : idx_main_v4 (ix1 k) d = ix2 k d := funext fun a => Fin.ext (by match a with | ⟨0, _⟩ => rfl | ⟨1, _⟩ => rfl)
  rw [e]; rfl

/-- The product with the transposed centres at (n, k): the inner product of point n and centre k. -/
theorem dot_eq (n : Fin 32768) (k : Fin 512) : val_main_v10 (F := Ideal) x c (ix2 n k) = ptDot x c n k := by
  rw [val_main_v10_apply]
  refine Finset.sum_congr rfl fun d _ => ?_
  rw [val_main_v9_apply]
  have el : lidx_main_v10 (ix2 n k) d = ix2 n d := funext fun a => Fin.ext (by match a with | ⟨0, _⟩ => rfl | ⟨1, _⟩ => rfl)
  have er : idx_main_v9 (ridx_main_v10 (ix2 n k) d) = ix2 k d := funext fun a => Fin.ext (by match a with | ⟨0, _⟩ => rfl | ⟨1, _⟩ => rfl)
  rw [el, er]

/-- The distance stage at (n, k): ((0 + |x_n|^2) + (0 + |c_k|^2)) - 2 * <x_n, c_k>, the two zeros neutral. -/
theorem dist_eq (n : Fin 32768) (k : Fin 512) : val_main_v13 (F := Ideal) x c (ix2 n k) = sqDist x c n k := by
  rw [val_main_v13_apply, val_main_v8_apply, val_main_v6_apply, val_main_v2_apply, val_main_v7_apply, val_main_v5_apply,
    val_main_v12_apply, val_main_v11_apply, val_main_cst_1_apply]
  have e1 : idx_main_v2 (idx_main_v6 (ix2 n k)) = ix1 n := funext fun a => Fin.ext (by match a with | ⟨0, _⟩ => rfl)
  have e2 : idx_main_v5 (idx_main_v7 (ix2 n k)) = ix1 k := funext fun a => Fin.ext (by match a with | ⟨0, _⟩ => rfl)
  rw [e1, e2, rowNorm_eq, ctrNorm_eq, dot_eq, zeroW_add, zeroW_add]
  rfl

/-- The weight stage at (n, k): (1 / (1 + max (dist n k) 0 / 1)) ^ 1, which is 1 / (1 + max (dist n k) 0). -/
theorem weight_eq (n : Fin 32768) (k : Fin 512) : val_main_v23 (F := Ideal) x c (ix2 n k) = weight x c n k := by
  rw [val_main_v23_apply, val_main_v22_apply, val_main_cst_6_apply, val_main_v21_apply, val_main_v20_apply, val_main_cst_5_apply,
    val_main_v19_apply, val_main_v18_apply, val_main_cst_4_apply, val_main_v17_apply, val_main_v16_apply, val_main_cst_3_apply,
    val_main_v15_apply, val_main_v14_apply, val_main_cst_2_apply, dist_eq]
  simp only [Ideal.hostPowf_def, Ideal.hostDivf_def, Ideal.addf_def, Ideal.maximumf_def, Ideal.ofBits_def]
  rw [pow_oneW, div_oneW]
  rfl

/-- The reference's result is the row-normalised weights: w n k / (0 + sum over k' of w n k'). -/
theorem result_eq : val_main_v27 (F := Ideal) x c = assign x c := by
  funext i
  obtain ⟨n, k, rfl⟩ : ∃ (n : Fin 32768) (k : Fin 512), i = ix2 n k := ⟨i 0, i 1, eq_ix2 i⟩
  rw [val_main_v27_apply, val_main_v26_apply, val_main_v25_apply, val_main_v24_apply, val_main_cst_7_apply, weight_eq]
  simp only [Ideal.hostDivf_def, Ideal.ofBits_def]
  rw [zeroW_add]
  refine congrArg (Ideal.div _) (Finset.sum_congr rfl fun k' _ => ?_)
  have e : idx_main_v24 (idx_main_v25 (idx_main_v26 (ix2 n k))) k' = ix2 n k' :=
    funext fun a => Fin.ext (by match a with | ⟨0, _⟩ => rfl | ⟨1, _⟩ => rfl)
  rw [e, weight_eq]

end Cert.ReferenceIdeal.RefValue

end
-- ==== Proof.lean ====
/-
  Soft assignment of 32768 points to 512 centres by a Student-t kernel: the Pallas kernel against its jnp reference, on
  the extended reals.

  Both programs compute, for points x : [32768, 256] and centres c : [512, 256],
    assign (n, k) = w n k / (sum over k' of w n k'),   w n k = 1 / (1 + max (dist n k) 0),
    dist n k = (|x_n|^2 + |c_k|^2) - 2 <x_n, c_k>
  (Proof/SoftAssign.lean). The kernel tiles the points 2048 rows at a time over a grid of sixteen points, keeps the
  centres whole (transposed, and with their squared norms precomputed on the host), takes the inner products as one
  matrix product per tile and normalises each row inside the tile; a row's normalising sum only involves that row, so
  tiling the rows changes nothing (Proof/KernelBlock.lean, Proof/KernelArray.lean). The reference computes the same
  formula on whole arrays, with a division by 1 and a power 1 that are the identity on every extended real
  (Proof/ReferenceAssign.lean). The additions are grouped alike in the two programs and no factor is moved across a sum,
  so the equality needs no finiteness: the precondition is never opened.

  The three frames are the generated ones (the reference's is its generated run with the result dropped); the ideal
  pass rewrote nothing, so `preserves` is `True`.
-/
import proofs.«413030_j26139170963599_3_alg».proof.Defs
import proofs.«413030_j26139170963599_3_alg».proof.Proof.Gen.Kernel
import proofs.«413030_j26139170963599_3_alg».proof.Proof.Gen.Kernel.Skeleton
import proofs.«413030_j26139170963599_3_alg».proof.Proof.Gen.Kernel.Launch
import proofs.«413030_j26139170963599_3_alg».proof.Proof.Gen.Kernel.Points
import proofs.«413030_j26139170963599_3_alg».proof.Proof.Gen.Kernel.Frame
import proofs.«413030_j26139170963599_3_alg».proof.Proof.Gen.KernelIdeal
import proofs.«413030_j26139170963599_3_alg».proof.Proof.Gen.KernelIdeal.Skeleton
import proofs.«413030_j26139170963599_3_alg».proof.Proof.Gen.KernelIdeal.Launch
import proofs.«413030_j26139170963599_3_alg».proof.Proof.Gen.KernelIdeal.Points
import proofs.«413030_j26139170963599_3_alg».proof.Proof.Gen.KernelIdeal.Frame
import proofs.«413030_j26139170963599_3_alg».proof.Proof.Gen.ReferenceIdeal
import proofs.«413030_j26139170963599_3_alg».proof.Proof.Gen.Pre_finite_inputs
import proofs.«413030_j26139170963599_3_alg».proof.Proof.Gen.KernelIdeal.Value
import proofs.«413030_j26139170963599_3_alg».proof.Proof.Gen.ReferenceIdeal.Run
import proofs.«413030_j26139170963599_3_alg».proof.Proof.Gen.ReferenceIdeal.Read
import proofs.«413030_j26139170963599_3_alg».proof.Proof.KernelArray
import proofs.«413030_j26139170963599_3_alg».proof.Proof.ReferenceAssign
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run with the result's clause dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result array ends at `assign` of its arguments, the reference's at its last stage, which is `assign`
    of its own arguments; the arguments agree, so the two results are one array. -/
theorem algebraic : Cert.algebraic_KernelIdeal_ReferenceIdeal := by
  intro m ρ m' ρ' _ hagree
  refine ⟨fun c => Cert.SoftAssign.assign (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
